-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S1024x1024 : Shape := ⟨2, ![1024, 1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S8x4096x1024 .f32) (main_arg1 : FVec F S1024x1024 .f32) (main_arg2 : FVec F S1024x1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S8x4096x1024 : Shape := ⟨3, ![8, 4096, 1024]⟩
abbrev S1024x1024 : Shape := ⟨2, ![1024, 1024]⟩
abbrev S32768x1024 : Shape := ⟨2, ![32768, 1024]⟩
abbrev S2048x1024 : Shape := ⟨2, ![2048, 1024]⟩

abbrev nBuf : Space → Nat
  | .hbm => 9
  | .vmem => 5
  | .smem => 0
  | _ => 0

abbrev bufTy : (tb : Table) → Fin (tcTables nBuf tb) → BufTy
  | .hbm, ⟨0, _⟩ => ⟨S8x4096x1024, .f32⟩
  | .hbm, ⟨1, _⟩ => ⟨S1024x1024, .f32⟩
  | .hbm, ⟨2, _⟩ => ⟨S1024x1024, .f32⟩
  | .hbm, ⟨3, _⟩ => ⟨S32768x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | .hbm, ⟨7, _⟩ => ⟨S32768x1024, .f32⟩
  | .hbm, ⟨8, _⟩ => ⟨S8x4096x1024, .f32⟩
  | .local _ .vmem, ⟨0, _⟩ => ⟨S2048x1024, .f32⟩
  | .local _ .vmem, ⟨1, _⟩ => ⟨S2048x1024, .f32⟩
  | .local _ .vmem, ⟨2, _⟩ => ⟨S1024x1024, .bf16⟩
  | .local _ .vmem, ⟨3, _⟩ => ⟨S2048x1024, .f32⟩
  | .local _ .vmem, ⟨4, _⟩ => ⟨S2048x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S8x4096x1024_S32768x1024 : S8x4096x1024.ShapeCasts S32768x1024
  transposes_S1024x1024_S1024x1024_1_0 : S1024x1024.Transposes [1, 0] S1024x1024
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S32768x1024_S8x4096x1024 : S32768x1024.ShapeCasts S8x4096x1024
  dot_S2048x1024_S1024x1024_S2048x1024_1_0_0_1_n_n_wf : DotDims.WF S2048x1024 S1024x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S32768x1024.size a
  hwx0_0 : ∀ i : grid0.Coords, EltTy.bits .f32 = 32 ∨ (Rect.block (s := S32768x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S32768x1024.size a
  hwx0_2 : ∀ i : grid0.Coords, EltTy.bits .f32 = 32 ∨ (Rect.block (s := S32768x1024) S2048x1024.size (cc0_transform_2 i) (hinb0_2 i)).WholeWords (EltTy.packing .f32)

variable [Facts₀]

def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf

abbrev win0_0 : Pipeline.Window sig grid0 :=
  Pipeline.Window.ofSpec (Memref.whole main_v0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x4096x1024 : Shape := ⟨3, ![8, 4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S8x4096x1024_S1024x1024_S8x4096x1024_2_1_01_0_n_n_wf : DotDims.WF S8x4096x1024 S1024x1024 S8x4096x1024 [2] [1] [0, 1] [0] [] []

variable [Facts₀]

def dot_S8x4096x1024_S1024x1024_S8x4096x1024_2_1_01_0_n_n : DotDims S8x4096x1024 S1024x1024 S8x4096x1024 where
  lhsContracting := [2]
  rhsContracting := [1]
  lhsNonContracting := [0, 1]
  rhsNonContracting := [0]
  lhsBatch := []
  rhsBatch := []
  wf := dot_S8x4096x1024_S1024x1024_S8x4096x1024_2_1_01_0_n_n_wf

class Facts : Prop extends Facts₀ where

variable [Facts]
-- ==== Proof.Spec.lean ====
/-
  The function both programs compute, over the extended reals.

  A linear layer whose weight is masked entrywise: for a batch index `b`, a position `s` and an output
  feature `o`,
      out[b, s, o] = Σ_k x[b, s, k] · (w[o, k] · mask[o, k]),   k over the 1024 input features.
  The kernel reaches it through a flattened product: the 8 × 4096 leading axes of `x` are merged into
  32768 rows, the masked weight is transposed to [k, o], and the rows are multiplied against it; the result
  is split back to [8, 4096, 1024]. Row `b · 4096 + s` of the flat array is row `(b, s)` of `x`, entry
  `[k, o]` of the transposed masked weight is `w[o, k] · mask[o, k]`, and a change of float format is the
  identity on the extended reals, so the two sums have the same terms.
-/
import Idealize.ShloMosaic.PureOps.Ideal
import Idealize.ShloMosaic.PureOps.Ideal.Laws
import Idealize.ShloMosaic.Lib.ValueIdx
import Idealize.ShloMosaic.Lib.Pipeline.Value

noncomputable section

namespace Cert.MaskedLinear

open Idealize.ShloMosaic Idealize.ShloMosaic.ValueIdx

/-- Activations: batch × position × input feature. -/
abbrev SAct : Shape := ⟨3, ![8, 4096, 1024]⟩
/-- A weight or mask: output feature × input feature (and, transposed, input × output). -/
abbrev SWgt : Shape := ⟨2, ![1024, 1024]⟩
/-- Activations with batch and position merged into one row axis. -/
abbrev SFlat : Shape := ⟨2, ![32768, 1024]⟩

/-- The masked linear layer: `out[b, s, o] = Σ_k x[b, s, k] · (w[o, k] · mask[o, k])`. -/
def maskedLinear (x : FVec Ideal SAct .f32) (w mk : FVec Ideal SWgt .f32) : FVec Ideal SAct .f32 :=
  fun i => ∑ k : Fin 1024, x (ix3 (i 0) (i 1) k) * (w (ix2 (i 2) k) * mk (ix2 (i 2) k))

/-- Rows times a matrix laid out [k, o]: `out[r, o] = Σ_k rows[r, k] · mat[k, o]`. -/
def rowsTimes (rows : FVec Ideal SFlat .f32) (mat : FVec Ideal SWgt .bf16) : FVec Ideal SFlat .f32 :=
  fun j => ∑ k : Fin 1024, rows (ix2 (j 0) k) * mat (ix2 k (j 1))

/-- Row `b · 4096 + s` of the flattened activations. -/
def flatRow (b : Fin 8) (s : Fin 4096) : Fin 32768 := ⟨b.val * 4096 + s.val, by have := b.isLt; have := s.isLt; omega⟩

/-- The merged array read at row `b · 4096 + s` is the activation array at `(b, s)`. -/
theorem flatten_apply (x : FVec Ideal SAct .f32) (h : SAct.ShapeCasts SFlat) (b : Fin 8) (s : Fin 4096) (k : Fin 1024) :
    shapeCast SFlat x h (ix2 (flatRow b s) k) = x (ix3 b s k) := by
  refine shapeCast_apply x h _ _ ?_
  rw [Shape.rowMajor_val_two, Shape.rowMajor_val_three]
  rfl

/-- The split array read at `(b, s, o)` is the flat array at row `b · 4096 + s`. -/
theorem unflatten_apply (y : FVec Ideal SFlat .f32) (h : SFlat.ShapeCasts SAct) (b : Fin 8) (s : Fin 4096) (o : Fin 1024) :
    shapeCast SAct y h (ix3 b s o) = y (ix2 (flatRow b s) o) := by
  refine shapeCast_apply y h _ _ ?_
  rw [Shape.rowMajor_val_two, Shape.rowMajor_val_three]
  rfl

/-- Entry `[k, o]` of the transposed, format-changed masked weight is `w[o, k] · mask[o, k]`. -/
theorem maskedT_apply (w mk : FVec Ideal SWgt .f32) (ht : SWgt.Transposes [1, 0] SWgt) (hlt : FTy.bits .bf16 < FTy.bits .f32)
    (k o : Fin 1024) :
    (truncf .bf16 (transpose SWgt [1, 0] (mulf w mk) ht) hlt : FVec Ideal SWgt .bf16) (ix2 k o) = w (ix2 o k) * mk (ix2 o k) := by
  rw [truncf_apply, transpose_apply [1, 0] (mulf w mk) ht (ix2 k o) (ix2 o k)
    (fun b => by match b with | ⟨0, _⟩ => rfl | ⟨1, _⟩ => rfl), mulf_apply]

/-- The flattened road ends at the masked linear layer: merge the leading axes, multiply the rows against the
    transposed masked weight, split the rows back. -/
theorem unflatten_rowsTimes (x : FVec Ideal SAct .f32) (w mk : FVec Ideal SWgt .f32)
    (hf : SAct.ShapeCasts SFlat) (hb : SFlat.ShapeCasts SAct) (ht : SWgt.Transposes [1, 0] SWgt)
    (hlt : FTy.bits .bf16 < FTy.bits .f32) :
    shapeCast SAct (rowsTimes (shapeCast SFlat x hf) (truncf .bf16 (transpose SWgt [1, 0] (mulf w mk) ht) hlt)) hb
      = maskedLinear x w mk := by
  funext i
  obtain ⟨b, s, o, rfl⟩ : ∃ (b : Fin 8) (s : Fin 4096) (o : Fin 1024), i = ix3 b s o := ⟨i 0, i 1, i 2, eq_ix3 i⟩
  rw [unflatten_apply]
  show (∑ k : Fin 1024, _) = ∑ k : Fin 1024, _
  refine Finset.sum_congr rfl fun k _ => ?_
  show shapeCast SFlat x hf (ix2 (flatRow b s) k) * (truncf .bf16 (transpose SWgt [1, 0] (mulf w mk) ht) hlt : FVec Ideal SWgt .bf16) (ix2 k o)
    = x (ix3 b s k) * (w (ix2 o k) * mk (ix2 o k))
  rw [flatten_apply, maskedT_apply]

end Cert.MaskedLinear

end
-- ==== Proof.RefSide.lean ====
/-
  The reference program computes the masked linear layer.

  Its two host operations are the entrywise product `w · mask` and one contraction of `x`'s last axis
  against the product's last axis. Read at an index `(b, s, o)` the contraction is the sum over `k` of
  `x[b, s, k]` times the product at `[o, k]`: the specification's sum, term by term.
-/
import proofs.«409155_j62182536512339_3_alg».proof.Proof.Gen.ReferenceIdeal.Read
import proofs.«409155_j62182536512339_3_alg».proof.Proof.Spec

noncomputable section

namespace Cert.MaskedLinear.Reference

open Idealize.ShloMosaic Idealize.ShloMosaic.ValueIdx Cert.ReferenceIdeal Cert.ReferenceIdeal.Read Cert.MaskedLinear

/-- The reference's result, as a function of its three arguments, is `maskedLinear`. -/
theorem result_eq (x : (⟨S8x4096x1024, .f32⟩ : BufTy).Contents (Elt Ideal)) (w mk : (⟨S1024x1024, .f32⟩ : BufTy).Contents (Elt Ideal)) :
    val_main_v1 (F := Ideal) x w mk = maskedLinear x w mk := by
  funext i
  obtain ⟨b, s, o, rfl⟩ : ∃ (b : Fin 8) (s : Fin 4096) (o : Fin 1024), i = ix3 b s o := ⟨i 0, i 1, i 2, eq_ix3 i⟩
  rw [val_main_v1_apply]
  refine Finset.sum_congr rfl fun k _ => ?_
  have el : lidx_main_v1 (ix3 b s o) k = ix3 b s k :=
    funext fun a => Fin.ext (by match a with | ⟨0, _⟩ => rfl | ⟨1, _⟩ => rfl | ⟨2, _⟩ => rfl)
  have er : ridx_main_v1 (ix3 b s o) k = ix2 o k :=
    funext fun a => Fin.ext (by match a with | ⟨0, _⟩ => rfl | ⟨1, _⟩ => rfl)
  rw [el, er]
  rfl

end Cert.MaskedLinear.Reference

end
-- ==== Proof.Body.lean ====
/-
  What the kernel body stores, index by index.

  At one grid point the body loads a block of 2048 flattened rows and the whole transposed masked weight,
  changes the rows' float format (the identity on the extended reals), and multiplies them on the matrix
  unit into a zero accumulator. Entry `(p, q)` of what it stores is therefore
      Σ_k rows[p, k] · mat[k, q],
  the contraction running over the rows' second axis and the matrix's first.
-/
import proofs.«409155_j62182536512339_3_alg».proof.Proof.Gen.KernelIdeal.Skeleton
import Idealize.ShloMosaic.PureOps.Ideal.Laws
import Idealize.ShloMosaic.Lib.ValueIdx
import Idealize.ShloMosaic.Lib.Pipeline.Value

noncomputable section

namespace Cert.MaskedLinear.Body

open Idealize.ShloMosaic Idealize.ShloMosaic.ValueIdx Cert.KernelIdeal Cert.KernelIdeal.Gen

variable [Cert.KernelIdeal.Facts]

/-- The rows' index of the product at `(j, k)`: the output's row on axis 0, -/
theorem lhs_axis0 (j : S2048x1024.Idx) (q : dot_S2048x1024_S1024x1024_S2048x1024_1_0_0_1_n_n.contr.Idx) :
    (dot_S2048x1024_S1024x1024_S2048x1024_1_0_0_1_n_n.lhsIdx j q 0).val = (j 0).val := by
  unfold DotDims.lhsIdx
  rw [dif_neg (show ¬(0 : Fin S2048x1024.rank) ∈ dot_S2048x1024_S1024x1024_S2048x1024_1_0_0_1_n_n.lhsBatch by decide), dif_pos (show (0 : Fin S2048x1024.rank) ∈ dot_S2048x1024_S1024x1024_S2048x1024_1_0_0_1_n_n.lhsNonContracting by decide)]
  rfl
/-- the contraction index on axis 1. -/
theorem lhs_axis1 (j : S2048x1024.Idx) (q : dot_S2048x1024_S1024x1024_S2048x1024_1_0_0_1_n_n.contr.Idx) :
    (dot_S2048x1024_S1024x1024_S2048x1024_1_0_0_1_n_n.lhsIdx j q 1).val = (q ⟨0, by decide⟩).val :=
  dot_S2048x1024_S1024x1024_S2048x1024_1_0_0_1_n_n.lhsIdx_val_of_single rfl j q
/-- The matrix's index: the contraction index on axis 0, -/
theorem rhs_axis0 (j : S2048x1024.Idx) (q : dot_S2048x1024_S1024x1024_S2048x1024_1_0_0_1_n_n.contr.Idx) :
    (dot_S2048x1024_S1024x1024_S2048x1024_1_0_0_1_n_n.rhsIdx j q 0).val = (q ⟨0, by decide⟩).val :=
  dot_S2048x1024_S1024x1024_S2048x1024_1_0_0_1_n_n.rhsIdx_val_of_single rfl j q
/-- the output's column on axis 1. -/
theorem rhs_axis1 (j : S2048x1024.Idx) (q : dot_S2048x1024_S1024x1024_S2048x1024_1_0_0_1_n_n.contr.Idx) :
    (dot_S2048x1024_S1024x1024_S2048x1024_1_0_0_1_n_n.rhsIdx j q 1).val = (j 1).val := by
  unfold DotDims.rhsIdx
  rw [dif_neg (show ¬(1 : Fin S1024x1024.rank) ∈ dot_S2048x1024_S1024x1024_S2048x1024_1_0_0_1_n_n.rhsBatch by decide), dif_pos (show (1 : Fin S1024x1024.rank) ∈ dot_S2048x1024_S1024x1024_S2048x1024_1_0_0_1_n_n.rhsNonContracting by decide)]
  rfl

/-- The matrix unit's product into a zero accumulator, read at `(p, q)`: `Σ_k l[p, k] · r[k, q]`. -/
theorem product_apply (l : FVec Ideal S2048x1024 .bf16) (r : FVec Ideal S1024x1024 .bf16) (p : Fin 2048) (q : Fin 1024) :
    matmul dot_S2048x1024_S1024x1024_S2048x1024_1_0_0_1_n_n none l r (constant S2048x1024 .f32 0x00000000#32) (ix2 p q)
      = ∑ k : Fin 1024, l (ix2 p k) * r (ix2 k q) := by
  show FloatOps.matmul dot_S2048x1024_S1024x1024_S2048x1024_1_0_0_1_n_n none l r (constant S2048x1024 .f32 0x00000000#32) (ix2 p q) = _
  rw [Ideal.matmul_constant_zero_apply, ← Equiv.sum_comp (contrEquiv1 dot_S2048x1024_S1024x1024_S2048x1024_1_0_0_1_n_n 1024 rfl rfl).symm]
  refine Finset.sum_congr rfl fun k _ => ?_
  have hk := contrEquiv1_symm_val dot_S2048x1024_S1024x1024_S2048x1024_1_0_0_1_n_n 1024 rfl rfl k
  have el : dot_S2048x1024_S1024x1024_S2048x1024_1_0_0_1_n_n.lhsIdx (ix2 p q) ((contrEquiv1 dot_S2048x1024_S1024x1024_S2048x1024_1_0_0_1_n_n 1024 rfl rfl).symm k) = ix2 p k := funext fun a => Fin.ext (by
    match a with
    | ⟨0, _⟩ => exact lhs_axis0 _ _
    | ⟨1, _⟩ => exact (lhs_axis1 _ _).trans hk)
  have er : dot_S2048x1024_S1024x1024_S2048x1024_1_0_0_1_n_n.rhsIdx (ix2 p q) ((contrEquiv1 dot_S2048x1024_S1024x1024_S2048x1024_1_0_0_1_n_n 1024 rfl rfl).symm k) = ix2 k q := funext fun a => Fin.ext (by
    match a with
    | ⟨0, _⟩ => exact (rhs_axis0 _ _).trans hk
    | ⟨1, _⟩ => exact rhs_axis1 _ _)
  rw [el, er]

/-- The body's one store, at `(p, q)`, from the two blocks it loaded. -/
theorem stored_apply (rows : Vec Ideal S2048x1024 .f32) (mat : Vec Ideal S1024x1024 .bf16) (p : Fin 2048) (q : Fin 1024) :
    k0_pay1 (F := Ideal) rows mat (ix2 p q) = ∑ k : Fin 1024, rows (ix2 p k) * mat (ix2 k q) := by
  unfold k0_pay1
  rw [shapeCast_self, shapeCast_self]
  exact product_apply _ _ p q

end Cert.MaskedLinear.Body

end
-- ==== Proof.Blocks.lean ====
/-
  From one grid point's block to the whole flat product.

  The region runs 16 points. Point `t` is handed rows `2048·t … 2048·t + 2047` of the flattened
  activations and, at every point, the whole transposed masked weight; it writes back rows
  `2048·t … 2048·t + 2047` of the output. What it writes is the corresponding block of ONE function of the
  two arrays the region finds, `rowsTimes`: entry `(p, q)` of the block is
  `Σ_k rows[2048·t + p, k] · mat[k, q]`. The 16 row blocks tile the 32768 rows (row `r` lies in block
  `r / 2048`), so after the last point the output array is `rowsTimes` of the two arrays everywhere.

  The two arrays the region finds are what the host lines before it computed: the activations with their two
  leading axes merged, and the entrywise product `w · mask`, transposed, its float format changed.
-/
import proofs.«409155_j62182536512339_3_alg».proof.Proof.Gen.KernelIdeal.Frame
import proofs.«409155_j62182536512339_3_alg».proof.Proof.Spec
import proofs.«409155_j62182536512339_3_alg».proof.Proof.Body
import Idealize.ShloMosaic.Lib.StableHlo.Run

set_option maxRecDepth 16384

noncomputable section

namespace Cert.MaskedLinear.Blocks

open Idealize.ShloMosaic Idealize.ShloMosaic.TcCoe Idealize.ShloMosaic.ValueIdx Idealize.SL.Sem
open Idealize.ShloMosaic.StableHlo
open Cert.KernelIdeal Cert.KernelIdeal.Gen Cert.MaskedLinear

variable (m : (ℓ : Loc nD τ sig) → Buf (Elt Ideal) ℓ)

/-! ## The two arrays the region finds -/

/-- The flattened activations: the first argument with its leading axes merged. -/
theorem rows_entry (c : Dev nD) :
    (V m c main_v0 : S32768x1024.Idx → EReal)
      = shapeCast S32768x1024 (m ((c : Thread nD τ).loc main_arg0)) shapeCasts_S8x4096x1024_S32768x1024 := by
  show StableHlo.after hostOps0 (fun b => m (c, b)) (Proc.devRef .tc main_v0) = _
  after_results
  rfl

/-- The matrix: `w · mask`, transposed to [k, o], in the narrower float format. -/
theorem matrix_entry (c : Dev nD) :
    (V m c main_v3 : FVec Ideal S1024x1024 .bf16)
      = truncf (F := Ideal) .bf16 (transpose S1024x1024 [1, 0]
          (mulf (F := Ideal) (m ((c : Thread nD τ).loc main_arg1) : FVec Ideal S1024x1024 .f32) (m ((c : Thread nD τ).loc main_arg2)))
          transposes_S1024x1024_S1024x1024_1_0) bitsLt_bf16_f32 := by
  show StableHlo.after hostOps0 (fun b => m (c, b)) (Proc.devRef .tc main_v3) = _
  after_results

/-! ## One point's block -/

theorem zero_offsets : (![0, 0] : Fin 2 → Nat) = fun _ => 0 := funext fun a => by fin_cases a <;> rfl

/-- The block indices, decided over the 16 points: the rows' and the output's block is the point's number on the
    row axis, the matrix's block is the whole matrix. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- If a block of rows is rows `2048·n + p` of an array `A` and the matrix block is all of `B`, what the body
    stores at `(p, q)` is `rowsTimes A B` at row `2048·n + p`, column `q`. -/
theorem stored_is_block (A : FVec Ideal SFlat .f32) (B : FVec Ideal SWgt .bf16)
    (rows : Vec Ideal S2048x1024 .f32) (mat : Vec Ideal S1024x1024 .bf16) (n : Nat) (hn : n < 16)
    (hrows : ∀ (p : Fin 2048) (k : Fin 1024), rows (ix2 p k) = A (ix2 ⟨n * 2048 + p.val, by have := p.isLt; omega⟩ k))
    (hmat : ∀ (k q : Fin 1024), mat (ix2 k q) = B (ix2 k q)) (p : Fin 2048) (q : Fin 1024) :
    k0_pay1 (F := Ideal) rows mat (ix2 p q) = rowsTimes A B (ix2 ⟨n * 2048 + p.val, by have := p.isLt; omega⟩ q) := by
  rw [Body.stored_apply]
  show (∑ k : Fin 1024, _) = ∑ k : Fin 1024, _
  refine Finset.sum_congr rfl fun k _ => ?_
  rw [hrows, hmat]

/-- What point `t` writes back is block `t` of `rowsTimes` of the two arrays the region finds. -/
theorem flushed_eq (c : Dev nD) (t : Fin cfg0.N) :
    (dats m 0 c).flushed 2 t
      = ((cfg0.win 2).blk t).view.read (Elt Ideal) (rowsTimes (V m c main_v0) (V m c main_v3)) := by
  show (cfg0.win 2).cut (grid0.coords t) ((dats m 0 c).after 2 t) = _
  rw [after0_2]
  unfold out0_2
  rw [View.canon_unit_zero zero_offsets]
  simp only [View.ld_unit_zero (S := S2048x1024) zero_offsets, View.ld_unit_zero (S := S1024x1024) zero_offsets]
  obtain ⟨e00, e01, e10, e11, e20, e21⟩ := block_indices t
  have ht : t.val < 16 := Nat.lt_of_lt_of_eq t.isLt (show cfg0.N = 16 from N_0)
  funext j
  obtain ⟨p, q, rfl⟩ : ∃ (p : Fin 2048) (q : Fin 1024), j = ix2 p q := ⟨j 0, j 1, eq_ix2 j⟩
  refine (stored_is_block (V m c main_v0) (V m c main_v3) (iblk m c 0 t) (iblk m c 1 t) t.val ht ?_ ?_ p q).trans ?_
  · intro p k
    show V m c main_v0 (((cfg0.win 0).blk t).view.emb (ix2 p k)) = _
    refine congrArg (V m c main_v0) (funext fun a => Fin.ext ?_)
    match a with
    | ⟨0, _⟩ => show win0_0.index t (0 : Fin 2) * 2048 + 1 * p.val = t.val * 2048 + p.val; rw [e00]; omega
    | ⟨1, _⟩ => show win0_0.index t (1 : Fin 2) * 1024 + 1 * k.val = k.val; rw [e01]; omega
  · intro k q
    show V m c main_v3 (((cfg0.win 1).blk t).view.emb (ix2 k q)) = _
    refine congrArg (V m c main_v3) (funext fun a => Fin.ext ?_)
    match a with
    | ⟨0, _⟩ => show win0_1.index t (0 : Fin 2) * 1024 + 1 * k.val = k.val; rw [e10]; omega
    | ⟨1, _⟩ => show win0_1.index t (1 : Fin 2) * 1024 + 1 * q.val = q.val; rw [e11]; omega
  · show rowsTimes (V m c main_v0) (V m c main_v3) _ = rowsTimes (V m c main_v0) (V m c main_v3) (((cfg0.win 2).blk t).view.emb (ix2 p q))
    refine congrArg (rowsTimes (V m c main_v0) (V m c main_v3)) (funext fun a => Fin.ext ?_)
    match a with
    | ⟨0, _⟩ => show t.val * 2048 + p.val = win0_2.index t (0 : Fin 2) * 2048 + 1 * p.val; rw [e20]; omega
    | ⟨1, _⟩ => show q.val = win0_2.index t (1 : Fin 2) * 1024 + 1 * q.val; rw [e21]; omega

/-! ## The blocks tile the array -/

/-- An index of the output array is in point `t`'s block iff each coordinate is in the block's range. -/
theorem mem_block (t : Fin cfg0.N) (i : S32768x1024.Idx) :
    i ∈ ((cfg0.win 2).blk t).view.set ↔ ∀ a : Fin 2, win0_2.index t a * S2048x1024.size a ≤ (i a).val
      ∧ (i a).val < win0_2.index t a * S2048x1024.size a + S2048x1024.size a := by
  show i ∈ ((View.whole main_v4).slice (win0_2.rect t)).set ↔ _
  rw [View.set_slice_whole, Rect.mem_set_unit]
  exact Iff.rfl

/-- Row `r` of the output lies in the block of point `r / 2048`, which is written back. -/
theorem covered (i : S32768x1024.Idx) :
    ∃ t : Fin cfg0.N, (cfg0.win 2).flush t = true ∧ i ∈ ((cfg0.win 2).blk t).view.set := by
  have hi0 : (i 0).val < 32768 := (i 0).isLt
  have hi1 : (i 1).val < 1024 := (i 1).isLt
  have hN : (i 0).val / 2048 < cfg0.N := by rw [show cfg0.N = grid0.N from rfl, N_0]; omega
  obtain ⟨-, -, -, -, e20, e21⟩ := block_indices ⟨(i 0).val / 2048, hN⟩
  have e20' : win0_2.index ⟨(i 0).val / 2048, hN⟩ (0 : Fin 2) = (i 0).val / 2048 := e20
  refine ⟨⟨(i 0).val / 2048, hN⟩, flush0_2 _, ?_⟩
  rw [mem_block]
  intro a
  match a with
  | ⟨0, _⟩ =>
    show win0_2.index ⟨(i 0).val / 2048, hN⟩ (0 : Fin 2) * 2048 ≤ (i 0).val
      ∧ (i 0).val < win0_2.index ⟨(i 0).val / 2048, hN⟩ (0 : Fin 2) * 2048 + 2048
    rw [e20']; omega
  | ⟨1, _⟩ =>
    show win0_2.index ⟨(i 0).val / 2048, hN⟩ (1 : Fin 2) * 1024 ≤ (i 1).val
      ∧ (i 1).val < win0_2.index ⟨(i 0).val / 2048, hN⟩ (1 : Fin 2) * 1024 + 1024
    rw [e21]; omega

/-- After the last point the output array is `rowsTimes` of the two arrays the region found. -/
theorem output_eq (c : Dev nD) :
    (dats m 0 c).arrAt 2 cfg0.N = rowsTimes (V m c main_v0) (V m c main_v3) :=
  (dats m 0 c).arrAt_eq_of_cover 2 _ (fun t _ => flushed_eq m c t) covered

end Cert.MaskedLinear.Blocks

end
-- ==== Proof.KernelRun.lean ====
/-
  The kernel program's result.

  After the region one host line splits the 32768 output rows back into batch × position. The region left the
  output array at `rowsTimes` of the merged activations and the transposed masked weight, so the program's
  result is the split of that product, which is the masked linear layer of the three arguments
  (`unflatten_rowsTimes`). The arguments themselves are written by no line and end as they began.
-/
import proofs.«409155_j62182536512339_3_alg».proof.Proof.Blocks

set_option maxRecDepth 16384

noncomputable section

namespace Cert.MaskedLinear.KernelRun

open Idealize.ShloMosaic Idealize.ShloMosaic.TcCoe Idealize.ShloMosaic.ValueIdx Idealize.SL.Sem
open Idealize.ShloMosaic.StableHlo
open Cert.KernelIdeal Cert.KernelIdeal.Gen Cert.MaskedLinear

variable (m : (ℓ : Loc nD τ sig) → Buf (Elt Ideal) ℓ) (ρ : Dev nD → PrngReg)

/-- What the line after the region leaves in the result buffer: the masked linear layer of the arguments. -/
theorem result_eq (c : Dev nD) :
    Pipeline.afterTail₀ cfgs (dats m) 0 (V0 m) [hostOps1] c main_v5
      = maskedLinear (m ((c : Thread nD τ).loc main_arg0)) (m ((c : Thread nD τ).loc main_arg1)) (m ((c : Thread nD τ).loc main_arg2)) := by
  unfold Pipeline.afterTail₀
  show StableHlo.after hostOps1 _ (Proc.devRef .tc main_v5) = _
  after_results
  have e : Pipeline.withArrays (cfgs 0).spec c (V0 m c) (fun w => (dats m 0 c).arrAt w (cfgs 0).N) (Proc.devRef .tc main_v4)
      = rowsTimes (V m c main_v0) (V m c main_v3) :=
    (Pipeline.withArrays_arr spec0 launch0.win.arr_inj c _ _ 2).trans (Blocks.output_eq m c)
  rw [e, Blocks.rows_entry, Blocks.matrix_entry]
  exact unflatten_rowsTimes _ _ _ _ _ _ _

/-- Every weakly fair execution of the kernel program ends with the result at the masked linear layer of the
    arguments and the arguments unchanged. -/
theorem run : θ_run defs (onTc (τ := τ) (main (F := Ideal))) ⟨m, fun _ => 0, ρ⟩ (fun r => ∀ c : Dev nD,
      r.2.mem ((c.tc : Thread nD τ).loc main_v5)
        = maskedLinear (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v5 (Pipeline.mem_restRefs_of main_v5 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.MaskedLinear.KernelRun

end
-- ==== Proof.lean ====
/-
  A masked linear layer, tiled over rows on the matrix unit, against one contraction on the host.

  Both programs take activations `x : [8, 4096, 1024]`, a weight `w : [1024, 1024]` and a mask of the weight's
  shape, and both compute, over the extended reals,
      out[b, s, o] = Σ_k x[b, s, k] · (w[o, k] · mask[o, k]).
  The reference forms `w · mask` and contracts `x`'s last axis against its last axis in one operation. The
  kernel merges batch and position into 32768 rows, forms `w · mask`, transposes it to [k, o] and changes its
  float format, multiplies the rows against it 2048 rows at a time into a zero accumulator, and splits the
  rows back. A change of float format is the identity on the extended reals, row `4096·b + s` of the merged
  array is row `(b, s)` of `x`, and entry `[k, o]` of the transposed product is entry `[o, k]` of the product:
  the two sums have the same terms in the same order, so no law of arithmetic is needed and the precondition
  (every input finite) is never opened.

  The parts: `Spec` states the layer and the flattened road to it; `RefSide` reads the reference's contraction at
  an index; `Body` reads the kernel body's product at an index; `Blocks` shows each grid point writes its block
  of one whole-array product and that the blocks tile the array; `KernelRun` carries that through the line after
  the region. The three frames come from the generated frame runs; the kernel's idealization rewrote nothing, so
  `preserves` has nothing to say.
-/
import proofs.«409155_j62182536512339_3_alg».proof.Defs
import proofs.«409155_j62182536512339_3_alg».proof.Proof.Gen.Kernel
import proofs.«409155_j62182536512339_3_alg».proof.Proof.Gen.Kernel.Skeleton
import proofs.«409155_j62182536512339_3_alg».proof.Proof.Gen.Kernel.Launch
import proofs.«409155_j62182536512339_3_alg».proof.Proof.Gen.Kernel.Points
import proofs.«409155_j62182536512339_3_alg».proof.Proof.Gen.Kernel.Frame
import proofs.«409155_j62182536512339_3_alg».proof.Proof.Gen.KernelIdeal
import proofs.«409155_j62182536512339_3_alg».proof.Proof.Gen.KernelIdeal.Skeleton
import proofs.«409155_j62182536512339_3_alg».proof.Proof.Gen.KernelIdeal.Launch
import proofs.«409155_j62182536512339_3_alg».proof.Proof.Gen.KernelIdeal.Points
import proofs.«409155_j62182536512339_3_alg».proof.Proof.Gen.KernelIdeal.Frame
import proofs.«409155_j62182536512339_3_alg».proof.Proof.Gen.ReferenceIdeal
import proofs.«409155_j62182536512339_3_alg».proof.Proof.Gen.Pre_finite_inputs
import proofs.«409155_j62182536512339_3_alg».proof.Proof.Gen.ReferenceIdeal.Run
import proofs.«409155_j62182536512339_3_alg».proof.Proof.Gen.ReferenceIdeal.Read
import proofs.«409155_j62182536512339_3_alg».proof.Proof.RefSide
import proofs.«409155_j62182536512339_3_alg».proof.Proof.KernelRun
import Idealize.ShloMosaic.Adequacy
import Idealize.ShloMosaic.Init

noncomputable section

namespace Cert.Proof

open Idealize.ShloMosaic Idealize.SL.Sem

/-- The word-level kernel runs and keeps its arguments: the generated frame run. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and keeps its arguments: its generated run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the three arguments both programs end with the masked linear layer of those
    arguments in their result. -/
theorem algebraic : Cert.algebraic_KernelIdeal_ReferenceIdeal := by
  intro m ρ m' ρ' _ hagree
  refine ⟨fun c => Cert.MaskedLinear.maskedLinear
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.MaskedLinear.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.MaskedLinear.Reference.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
